-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  broadcasts_S1024x1_S1024x4096 : S1024x1.Broadcasts S1024x4096
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .i1⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, on the extended reals, index by index.

  Each row of the activation matrix `x` (8192 rows of 4096 entries) is quantized symmetrically to the integer range
  [-127, 127] and brought back: the row's step is its largest absolute value over 127 (1 when that quotient is 0), an
  entry becomes `clamp (roundHalfEven (entry / step)) * step`. The result is the product of the quantized matrix with
  the transposed weight matrix, plus the bias along the columns:
  `out (r, o) = (∑ k, q (r, k) * w (o, k)) + b o`.

  Also here: three layout facts about a column of per-row values (a vector cast to one column, a column laid along the
  columns of a matrix, the maximum over a row), stated at an index.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.QuantLinear

open Idealize.ShloMosaic Idealize.ShloMosaic.ValueIdx

/-! ## The specification -/

/-- The largest absolute value in a row of 4096 entries, folded from `-∞`. -/
def rowAbsMax (v : Fin 4096 → EReal) : EReal :=
  (Finset.univ : Finset (Fin 4096)).fold max (Ideal.ofBits .f32 0xFF800000#32) (fun k => max (v k) (-(v k)))

/-- The row's quantization step: its largest absolute value over 127, and 1 where that quotient is 0. -/
def rowStep (v : Fin 4096 → EReal) : EReal :=
  Scalar.select
    (Ideal.cmp .oeq (Ideal.div (rowAbsMax v) (Ideal.ofBits .f32 0x42FE0000#32)) (Ideal.ofBits .f32 0x00000000#32))
    (Ideal.ofBits .f32 0x3F800000#32)
    (Ideal.div (rowAbsMax v) (Ideal.ofBits .f32 0x42FE0000#32))

/-- Entry `k` of a row after quantization to [-127, 127] in units of the row's step, and back. -/
def fakeQuant (v : Fin 4096 → EReal) (k : Fin 4096) : EReal :=
  min (Ideal.ofBits .f32 0x42FE0000#32)
      (max (Ideal.ofBits .f32 0xC2FE0000#32) (Ideal.liftRound Ideal.roundHalfEven (Ideal.div (v k) (rowStep v))))
    * rowStep v

/-- The quantized activations times the transposed weights, plus the bias. -/
def result (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, fakeQuant (fun k' => x (ix2 (i 0) k')) k * w (ix2 (i 1) k)) + b (ix1 (i 1))

theorem result_apply (x : (⟨2, ![8192, 4096]⟩ : Shape).Idx → EReal) (w : (⟨2, ![4096, 4096]⟩ : Shape).Idx → EReal)
    (b : (⟨1, ![4096]⟩ : Shape).Idx → EReal) (r : Fin 8192) (o : Fin 4096) :
    result x w b (ix2 r o) = (∑ k : Fin 4096, fakeQuant (fun k' => x (ix2 r k')) k * w (ix2 o k)) + b (ix1 o) := rfl

/-! ## A column of per-row values, read at an index -/

section Column
variable {α : Type} {R C : Nat}

/-- A vector of `R` entries cast to one column: entry `(p, 0)` is entry `p`. -/
theorem castColumn_apply (v : (⟨1, ![R]⟩ : Shape).Idx → α) (h : (⟨1, ![R]⟩ : Shape).ShapeCasts ⟨2, ![R, 1]⟩) (p : Fin R) :
    shapeCast ⟨2, ![R, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column of `R` entries repeated along the `C` columns of an `R × C` matrix: entry `(p, k)` is the column's
    entry `p`. -/
theorem spreadColumn_apply (y : (⟨2, ![R, 1]⟩ : Shape).Idx → α) (h : (⟨2, ![R, 1]⟩ : Shape).Broadcasts ⟨2, ![R, C]⟩)
    (p : Fin R) (k : Fin C) :
    broadcastTo ⟨2, ![R, C]⟩ y h (ix2 p k) = y (ix2 p (0 : Fin 1)) := by
  refine broadcastTo_apply y h (ix2 p k) (ix2 p (0 : Fin 1)) fun a => ?_
  match a with
  | ⟨0, _⟩ =>
    show p.val = if R = 1 then 0 else p.val
    split
    · have := p.isLt; omega
    · rfl
  | ⟨1, _⟩ =>
    show (0 : Nat) = if (1 : Nat) = 1 then 0 else k.val
    rw [if_pos rfl]

end Column

end Cert.QuantLinear

end
-- ==== Proof.Payload.lean ====
/-
  The two values the kernel body stores, read at an index.

  At a grid point of the first column of the grid the body quantizes its 1024-row block of activations row by row and
  keeps the result; at every point it multiplies the kept block with the point's 512 rows of weights (contracting the
  4096 columns of both) and adds the point's 512 bias entries along the columns. Entry `(p, k)` of the first value is
  the quantization of row `p` at `k`; entry `(p, q)` of the second is `(∑ k, kept (p, k) * w (q, k)) + bias (0, q)`.
-/
import proofs.«128674_j29695403884785_1_alg».proof.Proof.Gen.KernelIdeal.Skeleton
import proofs.«128674_j29695403884785_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Cert.QuantLinear Idealize.ShloMosaic Idealize.ShloMosaic.ValueIdx

/-! ## The quantized block -/

/-- The index a reduction over the columns reads at row `p` and inserted column `k` is `(p, k)`. -/
theorem lift_row (h : S1024x4096.Reduces [1] S1024) (p : Fin 1024) (k : Fin 4096) : h.lift (ix1 p) k = ix2 p k :=
  funext fun a => Fin.ext (by
    match a with
    | ⟨0, _⟩ => rfl
    | ⟨1, _⟩ => rfl)

/-- The maximum over a row of the block's absolute values is the row's largest absolute value. -/
theorem rowmax_apply (v : FVec Ideal S1024x4096 .f32) (h : S1024x4096.Reduces [1] S1024) (hφ : FKind.Formats .f32)
    (hacc : (0xFF800000#32 : BitVec 32) = FKind.maximumf.neutral .f32 hφ) (p : Fin 1024) :
    multiReduction .maximumf [1] S1024 (absf v) 0xFF800000#32 h hφ hacc (ix1 p) = rowAbsMax (fun k => v (ix2 p k)) := by
  rw [Ideal.multiReduction_maximumf_single]
  unfold rowAbsMax
  congr 1
  funext k
  exact congrArg (fun i => max (v i) (-(v i))) (lift_row h p k)

/-- The column of steps at row `p`, from the vector of row maxima. -/
theorem step_apply (mx : FVec Ideal S1024 .f32) (h : S1024.ShapeCasts S1024x1) (p : Fin 1024) :
    select (cmpf .oeq (divf (shapeCast S1024x1 mx h) (broadcast S1024x1 (Scalar.ofBits (F := Ideal) .f32 0x42FE0000#32)))
          (broadcast S1024x1 (Scalar.ofBits (F := Ideal) .f32 0x00000000#32)))
        (broadcast S1024x1 (Scalar.ofBits (F := Ideal) .f32 0x3F800000#32))
        (divf (shapeCast S1024x1 mx h) (broadcast S1024x1 (Scalar.ofBits (F := Ideal) .f32 0x42FE0000#32))) (ix2 p (0 : Fin 1))
      = Scalar.select (Ideal.cmp .oeq (Ideal.div (mx (ix1 p)) (Ideal.ofBits .f32 0x42FE0000#32)) (Ideal.ofBits .f32 0x00000000#32))
          (Ideal.ofBits .f32 0x3F800000#32) (Ideal.div (mx (ix1 p)) (Ideal.ofBits .f32 0x42FE0000#32)) := by
  show Scalar.select (Ideal.cmp .oeq (Ideal.div (shapeCast S1024x1 mx h (ix2 p (0 : Fin 1))) _) _) _
      (Ideal.div (shapeCast S1024x1 mx h (ix2 p (0 : Fin 1))) _) = _
  rw [castColumn_apply]
  rfl

/-- Entry `(p, k)` of the block the body keeps is row `p` of the loaded block quantized, at `k`. -/
theorem pay1_apply (v12 : Vec Ideal S1024x4096 .f32) (p : Fin 1024) (k : Fin 4096) :
    k0_pay1 (F := Ideal) v12 (ix2 p k) = fakeQuant (fun k' => v12 (ix2 p k')) k := by
  unfold k0_pay1
  dsimp only
  rw [shapeCast_self]
  show min (Ideal.ofBits .f32 0x42FE0000#32) (max (Ideal.ofBits .f32 0xC2FE0000#32)
      (Ideal.liftRound Ideal.roundHalfEven (Ideal.div (v12 (ix2 p k)) (broadcastTo S1024x4096 _ _ (ix2 p k)))))
      * broadcastTo S1024x4096 _ _ (ix2 p k) = _
  rw [spreadColumn_apply, step_apply]
  have hM := rowmax_apply v12 reduces_S1024x4096_S1024 (.inl rfl) rfl p
  unfold fakeQuant rowStep
  rw [← hM]

/-! ## The product with the weights, plus the bias -/

theorem lhs_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The matrix product into a zero accumulator, at `(p, q)`: row `p` of the left block against row `q` of the right. -/
theorem matmul_apply (a : FVec Ideal S1024x4096 .bf16) (b : FVec Ideal S512x4096 .bf16) (p : Fin 1024) (q : Fin 512) :
    matmul dot_S1024x4096_S512x4096_S1024x512_1_1_0_0_n_n none a b (constant S1024x512 .f32 0x00000000#32) (ix2 p q)
      = ∑ k : Fin 4096, a (ix2 p k) * b (ix2 q k) := by
  simp only [matmul]
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q) ((ValueIdx.contrEquiv1 dot_S1024x4096_S512x4096_S1024x512_1_1_0_0_n_n 4096 rfl rfl).symm k) = ix2 p k := funext fun a => Fin.ext (by
    match a with
    | ⟨0, _⟩ => exact lhs_0 _ _
    | ⟨1, _⟩ => exact (lhs_1 _ _).trans hk)
  have er : dot_S1024x4096_S512x4096_S1024x512_1_1_0_0_n_n.rhsIdx (ix2 p q) ((ValueIdx.contrEquiv1 dot_S1024x4096_S512x4096_S1024x512_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- Entry `(p, q)` of the block the body writes back. -/
theorem pay2_apply (v3 : Vec Ideal S1024x4096 .bf16) (v4 : Vec Ideal S512x4096 .bf16) (v7 : Vec Ideal S1x512 .f32)
    (p : Fin 1024) (q : Fin 512) :
    k0_pay2 (F := Ideal) v3 v4 v7 (ix2 p q) = (∑ k : Fin 4096, v3 (ix2 p k) * v4 (ix2 q k)) + v7 (ix2 (0 : Fin 1) q) := by
  unfold k0_pay2
  rw [shapeCast_self, shapeCast_self]
  show (matmul (F := Ideal) dot_S1024x4096_S512x4096_S1024x512_1_1_0_0_n_n none v3 v4 (constant S1024x512 .f32 0x00000000#32) (ix2 p q) : EReal)
      + broadcastTo S1024x512 v7 _ (ix2 p q) = _
  rw [matmul_apply, broadcastTo_1b_ab_apply]

end Cert.KernelIdeal.Payload

end
-- ==== Proof.KernelValue.lean ====
/-
  What the kernel's result array holds after the run: the specification of the three argument arrays.

  The grid has 8 × 8 points, visited row by row: point `t` works on rows `1024 (t / 8) …` of the activations and on
  rows `512 (t % 8) …` of the weights (the columns `512 (t % 8) …` of the result). At the first point of each grid row
  the body quantizes its block of activations and keeps it; the seven points after it find it where it was left. So
  after any point `t` the kept block is the quantization of the rows `1024 (t / 8) …` (induction along the points),
  what point `t` writes back is the product of that block with the point's weights plus the point's bias entries, and
  that is block `t` of the specification. The 64 blocks tile the result array.
-/
import proofs.«128674_j29695403884785_1_alg».proof.Proof.Gen.KernelIdeal.Value
import proofs.«128674_j29695403884785_1_alg».proof.Proof.Payload
import proofs.«128674_j29695403884785_1_alg».proof.Proof.Spec
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Payload Cert.QuantLinear
open Idealize.ShloMosaic Idealize.ShloMosaic.TcCoe Idealize.ShloMosaic.Tactic Idealize.ShloMosaic.ValueIdx Idealize.SL.Sem
open Idealize.ShloMosaic.Pipeline (Dat)

theorem hz : (![0, 0] : Fin 2 → Nat) = fun _ => 0 := funext fun a => by fin_cases a <;> rfl

/-! ## What one run of the body leaves -/

section Pieces
variable {F : FTy → Type} [FloatOps F]

/-- At the first point of a grid row the kept block ends as the quantization of the loaded activations. -/
theorem kept_first (c : Dev nD) (i : grid0.Coords) (arg2 : Memref sig .tc .vmem S1024x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x4096 .bf16) (harg6 : arg6.IsWhole) (hc0 : cond0_0 i)
    (x0 : Vec F S1024x4096 .f32) (x1 : Vec F S512x4096 .bf16) (x2 : Vec F S1x512 .f32) :
    sout0_A_0 c i arg2 harg2 arg3 harg3 arg4 harg4 arg5 harg5 arg6 harg6 hc0 x0 x1 x2 = k0_pay1 x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, View.ld_unit_zero (S := S1024x4096) hz]

/-- … and the block written back is the product of that quantization with the weights, plus the bias. -/
theorem out_first (c : Dev nD) (i : grid0.Coords) (arg2 : Memref sig .tc .vmem S1024x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x4096 .bf16) (harg6 : arg6.IsWhole) (hc0 : cond0_0 i)
    (x0 : Vec F S1024x4096 .f32) (x1 : Vec F S512x4096 .bf16) (x2 : Vec F S1x512 .f32) :
    out0_A_3 c i arg2 harg2 arg3 harg3 arg4 harg4 arg5 harg5 arg6 harg6 hc0 x0 x1 x2 = k0_pay2 (k0_pay1 x0) x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, harg3.read_unread, harg4.read_unread,
    View.readCov_unit_zero (S := S1024x4096) _ hz, View.ld_unit_zero (S := S1024x4096) hz,
    View.ld_unit_zero (S := S512x4096) hz, View.ld_unit_zero (S := S1x512) hz]

/-- At any other point the block written back is the product of the block found kept with the weights, plus the bias. -/
theorem out_later (c : Dev nD) (i : grid0.Coords) (arg2 : Memref sig .tc .vmem S1024x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x4096 .bf16) (harg6 : arg6.IsWhole) (hc0 : ¬cond0_0 i)
    (x0 : Vec F S1024x4096 .f32) (x1 : Vec F S512x4096 .bf16) (x2 : Vec F S1x512 .f32) (xs0 : Vec F S1024x4096 .bf16) :
    out0_B_3 c i arg2 harg2 arg3 harg3 arg4 harg4 arg5 harg5 arg6 harg6 hc0 x0 x1 x2 xs0 = k0_pay2 xs0 x1 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz]
  simp only [View.readAt_eq_ld, harg3.read_unread, harg4.read_unread, harg6.read_unread,
    View.ld_unit_zero (S := S1024x4096) hz, View.ld_unit_zero (S := S512x4096) hz, View.ld_unit_zero (S := S1x512) hz]

end Pieces

/-! ## The arrays the region finds, and the blocks of them a point is given -/

variable (m : (ℓ : Loc nD τ sig) → Buf (Elt Ideal) ℓ) (ρ : Dev nD → PrngReg)

/-- The activations, the narrowed weights and the bias as one row, as the region finds them. -/
abbrev xarr (c : Dev nD) : Vec Ideal S8192x4096 .f32 := V m c main_arg0
abbrev warr (c : Dev nD) : Vec Ideal S4096x4096 .bf16 := V m c main_v0
abbrev barr (c : Dev nD) : Vec Ideal S1x4096 .f32 := V m c main_v1
/-- The blocks of them point `t` is given. -/
abbrev xblk (c : Dev nD) (t : Fin cfg0.N) : Vec Ideal S1024x4096 .f32 := iblk m c 0 t
abbrev wblk (c : Dev nD) (t : Fin cfg0.N) : Vec Ideal S512x4096 .bf16 := iblk m c 1 t
abbrev bblk (c : Dev nD) (t : Fin cfg0.N) : Vec Ideal S1x512 .f32 := iblk m c 2 t

theorem xarr_eq (c : Dev nD) : xarr m c = m ((c : Thread nD τ).loc main_arg0) := V_main_arg0 m c

/-- The weights are narrowed to half width before the region: no change of value. -/
theorem warr_apply (c : Dev nD) (i : S4096x4096.Idx) : warr m c i = m ((c : Thread nD τ).loc main_arg1) i := by
  have e : (V m c main_v0 : S4096x4096.Idx → EReal)
      = (truncf (F := Ideal) .bf16 (m ((c : Thread nD τ).loc main_arg1) : FVec Ideal S4096x4096 .f32) bitsLt_bf16_f32 : S4096x4096.Idx → EReal) := by
    dsimp only [Gen.V, Gen.hostOps0]; after_results <;> rfl
  show (V m c main_v0 : S4096x4096.Idx → EReal) i = _
  rw [e]
  rfl

/-- The bias is laid out as one row before the region. -/
theorem barr_apply (c : Dev nD) (o : Fin 4096) : barr m c (ix2 (0 : Fin 1) o) = m ((c : Thread nD τ).loc main_arg2) (ix1 o) := by
  have e : (V m c main_v1 : S1x4096.Idx → EReal)
      = (shapeCast S1x4096 (m ((c : Thread nD τ).loc main_arg2) : S4096.Idx → EReal) shapeCasts_S4096_S1x4096 : S1x4096.Idx → EReal) := by
    dsimp only [Gen.V, Gen.hostOps0]; after_results <;> rfl
  show (V m c main_v1 : S1x4096.Idx → EReal) (ix2 (0 : Fin 1) o) = _
  rw [e]
  exact shapeCast_apply _ _ (ix2 (0 : Fin 1) o) (ix1 o) (by
    rw [Shape.rowMajor_val_one, Shape.rowMajor_val_two]
    show o.val = 0 * 4096 + o.val
    omega)

/-- The printed index maps over the grid: block row `t / 8` of the activations and of the result, block `t % 8` of the
    weights' rows, of the bias entries and of the result's columns. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

theorem xblk_apply (c : Dev nD) (t : Fin cfg0.N) (p : Fin 1024) (k : Fin 4096) (hr : 1024 * (t.val / 8) + p.val < 8192) :
    xblk m c t (ix2 p k) = xarr m c (ix2 ⟨1024 * (t.val / 8) + p.val, hr⟩ k) := by
  show V m c main_arg0 (((cfg0.win 0).blk t).view.emb (ix2 p k)) = V m c main_arg0 (ix2 ⟨1024 * (t.val / 8) + p.val, hr⟩ k)
  refine congrArg (V m c main_arg0) (funext fun a => Fin.ext ?_)
  obtain ⟨e0, e1, -⟩ := idx_facts t
  match a with
  | ⟨0, _⟩ => show win0_0.index t (0 : Fin 2) * 1024 + 1 * p.val = 1024 * (t.val / 8) + p.val; omega
  | ⟨1, _⟩ => show win0_0.index t (1 : Fin 2) * 4096 + 1 * k.val = k.val; omega

theorem wblk_apply (c : Dev nD) (t : Fin cfg0.N) (q : Fin 512) (k : Fin 4096) (hr : 512 * (t.val % 8) + q.val < 4096) :
    wblk m c t (ix2 q k) = warr m c (ix2 ⟨512 * (t.val % 8) + q.val, hr⟩ k) := by
  show V m c main_v0 (((cfg0.win 1).blk t).view.emb (ix2 q k)) = V m c main_v0 (ix2 ⟨512 * (t.val % 8) + q.val, hr⟩ k)
  refine congrArg (V m c main_v0) (funext fun a => Fin.ext ?_)
  obtain ⟨-, -, e2, e3, -⟩ := idx_facts t
  match a with
  | ⟨0, _⟩ => show win0_1.index t (0 : Fin 2) * 512 + 1 * q.val = 512 * (t.val % 8) + q.val; omega
  | ⟨1, _⟩ => show win0_1.index t (1 : Fin 2) * 4096 + 1 * k.val = k.val; omega

theorem bblk_apply (c : Dev nD) (t : Fin cfg0.N) (q : Fin 512) (hr : 512 * (t.val % 8) + q.val < 4096) :
    bblk m c t (ix2 (0 : Fin 1) q) = barr m c (ix2 (0 : Fin 1) ⟨512 * (t.val % 8) + q.val, hr⟩) := by
  show V m c main_v1 (((cfg0.win 2).blk t).view.emb (ix2 (0 : Fin 1) q)) = V m c main_v1 (ix2 (0 : Fin 1) ⟨512 * (t.val % 8) + q.val, hr⟩)
  refine congrArg (V m c main_v1) (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 512 + 1 * q.val = 512 * (t.val % 8) + q.val; omega

/-! ## The kept block after each point -/

/-- At the first point of a grid row the kept block is the quantization of the point's block of activations. -/
theorem kept_A (c : Dev nD) (t : Fin cfg0.N) (h0 : t.val % 8 = 0) :
    (outsAt0 m c t.val t.isLt).2 = k0_pay1 (xblk m c t) := by
  rw [outsAt0_A m c t h0]
  dsimp only
  exact kept_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- At any other point it is what the point before left. -/
theorem kept_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- After point `n` the kept block is the quantization of the activations' rows `1024 (n / 8) …`, row by row. -/
theorem kept_apply (c : Dev nD) : ∀ (n : ℕ) (hn : n < cfg0.N) (p : Fin 1024) (k : Fin 4096) (hr : 1024 * (n / 8) + p.val < 8192),
    (outsAt0 m c n hn).2 (ix2 p k) = fakeQuant (fun k' => xarr m c (ix2 ⟨1024 * (n / 8) + p.val, hr⟩ k')) k := by
  intro n
  induction n with
  | zero =>
    intro hn p k hr
    rw [show (outsAt0 m c 0 hn).2 = k0_pay1 (xblk m c ⟨0, hn⟩) from kept_A m c ⟨0, hn⟩ (Nat.zero_mod 8)]
    refine (pay1_apply (xblk m c ⟨0, hn⟩) p k).trans ?_
    exact congrArg (fun v => fakeQuant v k) (funext fun k' => xblk_apply m c ⟨0, hn⟩ p k' hr)
  | succ n ih =>
    intro hn p k hr
    by_cases h0 : (n + 1) % 8 = 0
    · rw [show (outsAt0 m c (n + 1) hn).2 = k0_pay1 (xblk m c ⟨n + 1, hn⟩) from kept_A m c ⟨n + 1, hn⟩ h0]
      refine (pay1_apply (xblk m c ⟨n + 1, hn⟩) p k).trans ?_
      exact congrArg (fun v => fakeQuant v k) (funext fun k' => xblk_apply m c ⟨n + 1, hn⟩ p k' hr)
    · have hr' : 1024 * (n / 8) + p.val < 8192 := by omega
      have e : (⟨1024 * ((n + 1) / 8) + p.val, hr⟩ : Fin 8192) = ⟨1024 * (n / 8) + p.val, hr'⟩ := Fin.ext (by
        show 1024 * ((n + 1) / 8) + p.val = 1024 * (n / 8) + p.val
        omega)
      rw [show (outsAt0 m c (n + 1) hn).2 = (outsAt0 m c n (Nat.lt_of_succ_lt hn)).2 from kept_B m c ⟨n + 1, hn⟩ h0, e]
      exact ih (Nat.lt_of_succ_lt hn) p k hr'

/-- What point `t` leaves in the result's buffer: the kept block times the point's weights, plus the point's bias. -/
theorem out_eq (c : Dev nD) (t : Fin cfg0.N) :
    (outsAt0 m c t.val t.isLt).1 = k0_pay2 ((outsAt0 m c t.val t.isLt).2) (wblk m c t) (bblk m c t) := by
  by_cases h0 : t.val % 8 = 0
  · rw [kept_A m c t h0, outsAt0_A m c t h0]
    dsimp only
    exact out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [kept_B m c t h0, outsAt0_B m c t h0]
    dsimp only
    exact out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2

/-! ## From the blocks to the array -/

/-- What point `t` writes back is block `t` of the specification of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Cert.KernelIdeal.Value.flushed3]
  funext j
  obtain ⟨p, q, rfl⟩ : ∃ (p : Fin 1024) (q : Fin 512), j = ix2 p q := ⟨j 0, j 1, eq_ix2 j⟩
  have hN : t.val < 64 := lt_of_lt_of_eq t.isLt (show cfg0.N = 64 from N_0)
  have hp : p.val < 1024 := p.isLt
  have hq' : q.val < 512 := q.isLt
  have hr : 1024 * (t.val / 8) + p.val < 8192 := by omega
  have hq : 512 * (t.val % 8) + q.val < 4096 := by omega
  show (outsAt0 m c t.val t.isLt).1 (ix2 p q)
    = result (m ((c : Thread nD τ).loc main_arg0)) (m ((c : Thread nD τ).loc main_arg1)) (m ((c : Thread nD τ).loc main_arg2))
        (((cfg0.win 3).blk t).view.emb (ix2 p q))
  have eemb : ((cfg0.win 3).blk t).view.emb (ix2 p q)
      = ix2 (⟨1024 * (t.val / 8) + p.val, hr⟩ : Fin 8192) (⟨512 * (t.val % 8) + q.val, hq⟩ : Fin 4096) := funext fun a => Fin.ext (by
    obtain ⟨-, -, -, -, -, -, e6, e7⟩ := idx_facts t
    match a with
    | ⟨0, _⟩ => show win0_3.index t (0 : Fin 2) * 1024 + 1 * p.val = 1024 * (t.val / 8) + p.val; omega
    | ⟨1, _⟩ => show win0_3.index t (1 : Fin 2) * 512 + 1 * q.val = 512 * (t.val % 8) + q.val; omega)
  rw [eemb, result_apply, out_eq m c t]
  refine (pay2_apply ((outsAt0 m c t.val t.isLt).2) (wblk m c t) (bblk m c t) p q).trans ?_
  rw [bblk_apply m c t q hq, barr_apply]
  congr 1
  refine Finset.sum_congr rfl fun k _ => ?_
  rw [kept_apply m c t.val t.isLt p k hr, wblk_apply m c t q k hq, warr_apply, xarr_eq]

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- The 64 blocks tile the result array: the index `(r, o)` is in the block of point `8 (r / 1024) + o / 512`. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  have ht : 8 * ((i 0).val / 1024) + (i 1).val / 512 < cfg0.N := by omega
  refine ⟨⟨8 * ((i 0).val / 1024) + (i 1).val / 512, ht⟩, flush0_3 _, ?_⟩
  rw [mem_blk]
  obtain ⟨-, -, -, -, -, -, e6, e7⟩ := idx_facts ⟨8 * ((i 0).val / 1024) + (i 1).val / 512, ht⟩
  have tv : (⟨8 * ((i 0).val / 1024) + (i 1).val / 512, ht⟩ : Fin cfg0.N).val = 8 * ((i 0).val / 1024) + (i 1).val / 512 := rfl
  rw [tv] at e6 e7
  intro a
  match a with
  | ⟨0, _⟩ =>
    show win0_3.index ⟨8 * ((i 0).val / 1024) + (i 1).val / 512, ht⟩ (0 : Fin 2) * 1024 ≤ (i 0).val
      ∧ (i 0).val < win0_3.index ⟨8 * ((i 0).val / 1024) + (i 1).val / 512, ht⟩ (0 : Fin 2) * 1024 + 1024
    omega
  | ⟨1, _⟩ =>
    show win0_3.index ⟨8 * ((i 0).val / 1024) + (i 1).val / 512, ht⟩ (1 : Fin 2) * 512 ≤ (i 1).val
      ∧ (i 1).val < win0_3.index ⟨8 * ((i 0).val / 1024) + (i 1).val / 512, ht⟩ (1 : Fin 2) * 512 + 512
    omega

/-- The result array after the run is the specification of the argument arrays. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: it ends with the result array at the specification and the arguments as they were. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KValue

end
-- ==== Proof.RefValue.lean ====
/-
  The reference computes the specification: its last stage, read at an index, is
  `(∑ k, q (r, k) * w (o, k)) + b o` with `q` the row-by-row quantization of the activations.

  The host's maximum over each row of `|x|` is the row's largest absolute value; the column of steps, broadcast along
  the rows, gives every entry of row `r` that row's step; clamp and rounding are entrywise; the contraction of the
  quantized matrix with the weights over the columns of both is the sum over `k`; the bias is laid along the columns.
-/
import proofs.«128674_j29695403884785_1_alg».proof.Proof.Gen.ReferenceIdeal.Read
import proofs.«128674_j29695403884785_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.QuantLinear
open Idealize.ShloMosaic Idealize.ShloMosaic.ValueIdx

/-- The index a reduction over the columns reads at row `r` and inserted column `k` is `(r, k)`. -/
theorem lift_row (h : S8192x4096.Reduces [1] S8192) (r : Fin 8192) (k : Fin 4096) : h.lift (ix1 r) k = ix2 r k :=
  funext fun a => Fin.ext (by
    match a with
    | ⟨0, _⟩ => rfl
    | ⟨1, _⟩ => rfl)

theorem reduces_rows : S8192x4096.Reduces [1] S8192 := by decide

/-- The host's maximum over row `r` of `|x|` is the row's largest absolute value. -/
theorem rowmax_apply (x : (⟨S8192x4096, .f32⟩ : BufTy).Contents (Elt Ideal)) (r : Fin 8192) :
    val_main_v1 (F := Ideal) x (ix1 r) = rowAbsMax (fun k => x (ix2 r k)) := by
  unfold val_main_v1
  rw [Host.reduce_eq_fold_single (a := 1) FloatOps.maximumf _ _ reducesTo_S8192x4096_S8192_d1 reduces_rows h_S_ (ix1 r)]
  unfold rowAbsMax
  congr 1
  funext k
  exact congrArg (fun i => max (x i) (-(x i))) (lift_row reduces_rows r k)

/-- The column of steps at row `r`. -/
theorem step_apply (x : (⟨S8192x4096, .f32⟩ : BufTy).Contents (Elt Ideal)) (r : Fin 8192) :
    val_main_v8 (F := Ideal) x (ix2 r (0 : Fin 1)) = rowStep (fun k => x (ix2 r k)) := by
  have e2 : idx_main_v2 (ix2 r (0 : Fin 1)) = ix1 r := funext fun a => Fin.ext (by
    match a with
    | ⟨0, _⟩ => rfl)
  rw [val_main_v8_apply, val_main_v6_apply, val_main_v4_apply, val_main_v2_apply, val_main_v3_apply, val_main_v5_apply,
    val_main_v7_apply, val_main_cst_0_apply, val_main_cst_1_apply, val_main_cst_2_apply, e2, rowmax_apply]
  rfl

/-- Entry `(r, k)` of the quantized activations. -/
theorem quant_apply (x : (⟨S8192x4096, .f32⟩ : BufTy).Contents (Elt Ideal)) (r : Fin 8192) (k : Fin 4096) :
    val_main_v14 (F := Ideal) x (ix2 r k) = fakeQuant (fun k' => x (ix2 r k')) k := by
  have e9 : idx_main_v9 (ix2 r k) = ix2 r (0 : Fin 1) := funext fun a => Fin.ext (by
    match a with
    | ⟨0, _⟩ => rfl
    | ⟨1, _⟩ => rfl)
  have e13 : idx_main_v13 (ix2 r k) = ix2 r (0 : Fin 1) := funext fun a => Fin.ext (by
    match a with
    | ⟨0, _⟩ => rfl
    | ⟨1, _⟩ => rfl)
  rw [val_main_v14_apply, val_main_v12_apply, val_main_v13_apply, val_main_call2_v4_apply, val_main_call2_v2_apply,
    val_main_call2_v1_apply, val_main_call2_v3_apply, val_main_call2_v0_apply, val_main_cst_3_apply, val_main_cst_4_apply,
    val_main_v11_apply, val_main_v10_apply, val_main_v9_apply, e9, e13, step_apply]
  rfl

/-- The reference's result is the specification of its three arguments. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v18 (F := Ideal) x w b = result x w b := by
  funext i
  obtain ⟨r, o, rfl⟩ : ∃ (r : Fin 8192) (o : Fin 4096), i = ix2 r o := ⟨i 0, i 1, eq_ix2 i⟩
  have el : ∀ k : Fin 4096, lidx_main_v15 (ix2 r o) k = ix2 r k := fun k => funext fun a => Fin.ext (by
    match a with
    | ⟨0, _⟩ => rfl
    | ⟨1, _⟩ => rfl)
  have er : ∀ k : Fin 4096, ridx_main_v15 (ix2 r o) k = ix2 o k := fun k => funext fun a => Fin.ext (by
    match a with
    | ⟨0, _⟩ => rfl
    | ⟨1, _⟩ => rfl)
  have eb : idx_main_v16 (idx_main_v17 (ix2 r o)) = ix1 o := funext fun a => Fin.ext (by
    match a with
    | ⟨0, _⟩ => rfl)
  rw [val_main_v18_apply, val_main_v15_apply, val_main_v17_apply, val_main_v16_apply, eb, result_apply]
  simp only [el, er, quant_apply]
  rfl

end Cert.ReferenceIdeal.RefValue

end
-- ==== Proof.lean ====
/- The kernel and the reference compute one function of the activations `x`, the weights `w` and the bias `b`.

   Each of the 8192 rows of `x` is quantized symmetrically to the integer range [-127, 127] and brought back: the
   row's step is its largest absolute value over 127 (1 where that quotient is 0), an entry becomes
   `clamp (roundHalfEven (entry / step)) * step`; the result is `out (r, o) = (∑ k, q (r, k) * w (o, k)) + b o`.

   The reference does this on whole arrays. The kernel walks an 8 × 8 grid row by row: at the first point of a grid row
   it quantizes 1024 rows of `x` and keeps them, and at each of the row's eight points it multiplies the kept block with
   512 rows of `w`, adds 512 entries of `b` along the columns and writes a 1024 × 512 block of the result. On the
   extended reals the narrowing of the kept block and of the weights to half width changes no value, the contraction
   runs over all 4096 columns at once on both sides, and the 64 blocks tile the result: both programs end with the
   specification of their arguments (Proof/Spec.lean; the kernel's side Proof/KernelValue.lean over Proof/Payload.lean,
   the reference's Proof/RefValue.lean). No law of arithmetic is used that asks the inputs to be finite. -/
import proofs.«128674_j29695403884785_1_alg».proof.Defs
import proofs.«128674_j29695403884785_1_alg».proof.Proof.Gen.Kernel
import proofs.«128674_j29695403884785_1_alg».proof.Proof.Gen.Kernel.Skeleton
import proofs.«128674_j29695403884785_1_alg».proof.Proof.Gen.Kernel.Launch
import proofs.«128674_j29695403884785_1_alg».proof.Proof.Gen.Kernel.Points
import proofs.«128674_j29695403884785_1_alg».proof.Proof.Gen.Kernel.Frame
import proofs.«128674_j29695403884785_1_alg».proof.Proof.Gen.KernelIdeal
import proofs.«128674_j29695403884785_1_alg».proof.Proof.Gen.KernelIdeal.Skeleton
import proofs.«128674_j29695403884785_1_alg».proof.Proof.Gen.KernelIdeal.Launch
import proofs.«128674_j29695403884785_1_alg».proof.Proof.Gen.KernelIdeal.Points
import proofs.«128674_j29695403884785_1_alg».proof.Proof.Gen.KernelIdeal.Frame
import proofs.«128674_j29695403884785_1_alg».proof.Proof.Gen.ReferenceIdeal
import proofs.«128674_j29695403884785_1_alg».proof.Proof.Gen.Pre_finite_inputs
import proofs.«128674_j29695403884785_1_alg».proof.Proof.Gen.KernelIdeal.Value
import proofs.«128674_j29695403884785_1_alg».proof.Proof.Gen.ReferenceIdeal.Run
import proofs.«128674_j29695403884785_1_alg».proof.Proof.Gen.ReferenceIdeal.Read
import proofs.«128674_j29695403884785_1_alg».proof.Proof.KernelValue
import proofs.«128674_j29695403884785_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification of the arguments. -/
theorem algebraic : Cert.algebraic_KernelIdeal_ReferenceIdeal := by
  intro m ρ m' ρ' _ hagree
  refine ⟨fun c => Cert.QuantLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
